-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x3 : Shape := ⟨3, ![4, 16384, 3]⟩
abbrev S4x4096x3 : Shape := ⟨3, ![4, 4096, 3]⟩
abbrev S_ : Shape := ⟨0, ![]⟩

class Facts : Prop where
  bcast_S_S4x16384x3 : S_.BroadcastsInDim S4x16384x3 (![] : Fin 0 → Fin S4x16384x3.rank)
  reducesTo_S4x16384x3_S_d0_1_2 : S4x16384x3.ReducesTo [0, 1, 2] S_
  h_S_ : 0 < S_.numel
  bcast_S_S4x4096x3 : S_.BroadcastsInDim S4x4096x3 (![] : Fin 0 → Fin S4x4096x3.rank)
  reducesTo_S4x4096x3_S_d0_1_2 : S4x4096x3.ReducesTo [0, 1, 2] S_

variable [Facts]

def fn {F : FTy → Type} [FloatOps F] (main_arg0 : FVec F S4x16384x3 .f32) (main_arg1 : FVec F S4x4096x3 .f32) : IVec S_ 1 :=
  let main_v0 : FVec F S4x16384x3 .f32 := Host.absf main_arg0
  let main_cst : FVec F S_ .f32 := constant S_ .f32 0x7F800000#32
  let main_v1 : FVec F S4x16384x3 .f32 := broadcastInDim S4x16384x3 ![] bcast_S_S4x16384x3 main_cst
  let main_v2 : IVec S4x16384x3 1 := cmpf .olt main_v0 main_v1
  let main_c : IVec S_ 1 := constantI S_ 1 1#1
  let main_v3 : IVec S_ 1 := (fun x v => Host.reduce IntOp.andi x v reducesTo_S4x16384x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x16384x3 : Shape := ⟨3, ![4, 16384, 3]⟩
abbrev S4x4096x3 : Shape := ⟨3, ![4, 4096, 3]⟩
abbrev S4x3x16384 : Shape := ⟨3, ![4, 3, 16384]⟩
abbrev S4x3x4096 : Shape := ⟨3, ![4, 3, 4096]⟩
abbrev S4x1x128 : Shape := ⟨3, ![4, 1, 128]⟩
abbrev S1x3x512 : Shape := ⟨3, ![1, 3, 512]⟩
abbrev S1x3x4096 : Shape := ⟨3, ![1, 3, 4096]⟩
abbrev S1x1x128 : Shape := ⟨3, ![1, 1, 128]⟩
abbrev S1x128 : Shape := ⟨2, ![1, 128]⟩
abbrev S3x512 : Shape := ⟨2, ![3, 512]⟩
abbrev S3x4096 : Shape := ⟨2, ![3, 4096]⟩
abbrev S512 : Shape := ⟨1, ![512]⟩
abbrev S4096 : Shape := ⟨1, ![4096]⟩
abbrev S512x4096 : Shape := ⟨2, ![512, 4096]⟩
abbrev S512x1 : Shape := ⟨2, ![512, 1]⟩
abbrev S1x4096 : Shape := ⟨2, ![1, 4096]⟩
abbrev S1x512 : Shape := ⟨2, ![1, 512]⟩
abbrev S1 : Shape := ⟨1, ![1]⟩
abbrev S1x1 : Shape := ⟨2, ![1, 1]⟩
abbrev S4x1x1 : Shape := ⟨3, ![4, 1, 1]⟩
abbrev S4 : Shape := ⟨1, ![4]⟩

abbrev nBuf : Space → Nat
  | .hbm => 7
  | .vmem => 7
  | .smem => 0
  | _ => 0

abbrev bufTy : (tb : Table) → Fin (tcTables nBuf tb) → BufTy
  | .hbm, ⟨0, _⟩ => ⟨S4x16384x3, .f32⟩
  | .hbm, ⟨1, _⟩ => ⟨S4x4096x3, .f32⟩
  | .hbm, ⟨2, _⟩ => ⟨S4x3x16384, .f32⟩
  | .hbm, ⟨3, _⟩ => ⟨S4x3x4096, .f32⟩
  | .hbm, ⟨4, _⟩ => ⟨S4x1x128, .f32⟩
  | .hbm, ⟨5, _⟩ => ⟨S4x1x1, .f32⟩
  | .hbm, ⟨6, _⟩ => ⟨S4, .f32⟩
  | .local _ .vmem, ⟨0, _⟩ => ⟨S1x3x512, .f32⟩
  | .local _ .vmem, ⟨1, _⟩ => ⟨S1x3x512, .f32⟩
  | .local _ .vmem, ⟨2, _⟩ => ⟨S1x3x4096, .f32⟩
  | .local _ .vmem, ⟨3, _⟩ => ⟨S1x3x4096, .f32⟩
  | .local _ .vmem, ⟨4, _⟩ => ⟨S1x1x128, .f32⟩
  | .local _ .vmem, ⟨5, _⟩ => ⟨S1x1x128, .f32⟩
  | .local _ .vmem, ⟨6, _⟩ => ⟨S1x128, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v35 : BitVec 1 := Scalar.cmpi .eq arg1 c31_i32
  let v36 : BitVec 32 := Scalar.extui v35
  let c0_i32_16 : BitVec 32 := 0#32
  let v37 : BitVec 1 := Scalar.cmpi .ne v36 c0_i32_16
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4x16384x3_S4x3x16384_0_2_1 : S4x16384x3.Transposes [0, 2, 1] S4x3x16384
  transposes_S4x4096x3_S4x3x4096_0_2_1 : S4x4096x3.Transposes [0, 2, 1] S4x3x4096
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S3x512_S512 : S3x512.Reduces [0] S512
  reduces_S3x4096_S4096 : S3x4096.Reduces [0] S4096
  bitsLt_bf16_f32 : FTy.bits .bf16 < FTy.bits .f32
  shapeCasts_S512_S512x1 : S512.ShapeCasts S512x1
  shapeCasts_S4096_S1x4096 : S4096.ShapeCasts S1x4096
  broadcasts_S512x1_S512x4096 : S512x1.Broadcasts S512x4096
  broadcasts_S1x4096_S512x4096 : S1x4096.Broadcasts S512x4096
  reduces_S512x4096_S512 : S512x4096.Reduces [1] S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S4x1x128_S4x1x1_0_0_0 : S4x1x128.Slices ![0, 0, 0] S4x1x1
  shapeCasts_S4x1x1_S4 : S4x1x1.ShapeCasts S4
  dot_S3x512_S3x4096_S512x4096_0_0_1_1_n_n_wf : DotDims.WF S3x512 S3x4096 S512x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512.size a ≤ S4x3x16384.size a
  hwx0_0 : ∀ i : grid0.Coords, EltTy.bits .f32 = 32 ∨ (Rect.block (s := S4x3x16384) S1x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)

variable [Facts₀]

def dot_S3x512_S3x4096_S512x4096_0_0_1_1_n_n : DotDims S3x512 S3x4096 S512x4096 where
  lhsContracting := [0]
  rhsContracting := [0]
  lhsNonContracting := [1]
  rhsNonContracting := [1]
  lhsBatch := []
  rhsBatch := []
  wf := dot_S3x512_S3x4096_S512x4096_0_0_1_1_n_n_wf

abbrev win0_0 : Pipeline.Window sig grid0 :=
  Pipeline.Window.ofSpec (Memref.whole main_v0) S1x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x16384x3 : Shape := ⟨3, ![4, 16384, 3]⟩
abbrev S4x4096x3 : Shape := ⟨3, ![4, 4096, 3]⟩
abbrev S_ : Shape := ⟨0, ![]⟩
abbrev S4x16384 : Shape := ⟨2, ![4, 16384]⟩
abbrev S4x4096 : Shape := ⟨2, ![4, 4096]⟩
abbrev S4x16384x4096 : Shape := ⟨3, ![4, 16384, 4096]⟩
abbrev S4x16384x1 : Shape := ⟨3, ![4, 16384, 1]⟩
abbrev S4x1x4096 : Shape := ⟨3, ![4, 1, 4096]⟩
abbrev S4 : Shape := ⟨1, ![4]⟩

abbrev nBuf : Space → Nat
  | .hbm => 28
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S4x4096x3, .f32⟩
  | .hbm, ⟨2, _⟩ => ⟨S4x16384x3, .f32⟩
  | .hbm, ⟨3, _⟩ => ⟨S_, .f32⟩
  | .hbm, ⟨4, _⟩ => ⟨S4x16384, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x16384x4096, .f32⟩
  | .hbm, ⟨9, _⟩ => ⟨S4x16384x1, .f32⟩
  | .hbm, ⟨10, _⟩ => ⟨S4x1x4096, .f32⟩
  | .hbm, ⟨11, _⟩ => ⟨S4x16384x4096, .f32⟩
  | .hbm, ⟨12, _⟩ => ⟨S4x16384x4096, .f32⟩
  | .hbm, ⟨13, _⟩ => ⟨S4x16384x4096, .f32⟩
  | .hbm, ⟨14, _⟩ => ⟨S_, .f32⟩
  | .hbm, ⟨15, _⟩ => ⟨S4x16384x4096, .f32⟩
  | .hbm, ⟨16, _⟩ => ⟨S4x16384x4096, .f32⟩
  | .hbm, ⟨17, _⟩ => ⟨S4x16384x4096, .f32⟩
  | .hbm, ⟨18, _⟩ => ⟨S_, .f32⟩
  | .hbm, ⟨19, _⟩ => ⟨S4x16384x4096, .f32⟩
  | .hbm, ⟨20, _⟩ => ⟨S4x16384x4096, .f32⟩
  | .hbm, ⟨21, _⟩ => ⟨S_, .f32⟩
  | .hbm, ⟨22, _⟩ => ⟨S4x16384, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S4x16384x3_S4x16384_d2 : S4x16384x3.ReducesTo [2] S4x16384
  h_S_ : 0 < S_.numel
  reducesTo_S4x4096x3_S4x4096_d2 : S4x4096x3.ReducesTo [2] S4x4096
  bcast_S4x16384_S4x16384x1_0_1 : S4x16384.BroadcastsInDim S4x16384x1 (![0, 1] : Fin 2 → Fin S4x16384x1.rank)
  bcast_S4x4096_S4x1x4096_0_2 : S4x4096.BroadcastsInDim S4x1x4096 (![0, 2] : Fin 2 → Fin S4x1x4096.rank)
  bcast_S4x16384x1_S4x16384x4096_0_1_2 : S4x16384x1.BroadcastsInDim S4x16384x4096 (![0, 1, 2] : Fin 3 → Fin S4x16384x4096.rank)
  bcast_S4x1x4096_S4x16384x4096_0_1_2 : S4x1x4096.BroadcastsInDim S4x16384x4096 (![0, 1, 2] : Fin 3 → Fin S4x16384x4096.rank)
  bcast_S_S4x16384x4096 : S_.BroadcastsInDim S4x16384x4096 (![] : Fin 0 → Fin S4x16384x4096.rank)
  reducesTo_S4x16384x4096_S4x16384_d2 : S4x16384x4096.ReducesTo [2] S4x16384
  reducesTo_S4x16384_S4_d1 : S4x16384.ReducesTo [1] S4
  bcast_S_S4 : S_.BroadcastsInDim S4 (![] : Fin 0 → Fin S4.rank)
  dot_S4x16384x3_S4x4096x3_S4x16384x4096_2_2_1_1_0_0_wf : DotDims.WF S4x16384x3 S4x4096x3 S4x16384x4096 [2] [2] [1] [1] [0] [0]

variable [Facts₀]

def dot_S4x16384x3_S4x4096x3_S4x16384x4096_2_2_1_1_0_0 : DotDims S4x16384x3 S4x4096x3 S4x16384x4096 where
  lhsContracting := [2]
  rhsContracting := [2]
  lhsNonContracting := [1]
  rhsNonContracting := [1]
  lhsBatch := [0]
  rhsBatch := [0]
  wf := dot_S4x16384x3_S4x4096x3_S4x16384x4096_2_2_1_1_0_0_wf

class Facts : Prop extends Facts₀ where

variable [Facts]
-- ==== Proof.Spec.lean ====
/-
  The mean nearest-vertex squared distance of one batch, over the extended reals.

  A point is its three coordinates. For a point `p` and a vertex `v` the squared distance is taken in its expanded
  form |p|² + |v|² − 2·⟨p, v⟩ and clamped below at zero; `nearest p v` is its minimum over all vertices (a fold of
  `min` from +∞), `sumNearest` the sum of that over the points, `meanNearest` that sum divided by the number of
  points. The four constants are kept as the float words both programs print: 2.0, 0.0, +∞ and 16384.0.

  The one law used: a sum over a·c points is the sum, over the a consecutive tiles of c points, of the tiles' sums.
  Addition of extended reals is commutative and associative, so nothing has to be finite.
-/
import Idealize.ShloMosaic.PureOps.Ideal.Laws
import Mathlib.Algebra.BigOperators.Fin
import Mathlib.Logic.Equiv.Fin.Basic

noncomputable section

namespace Cert.Chamfer

open Idealize.ShloMosaic

/-- A point or a vertex: three coordinates. -/
abbrev Pt := Fin 3 → EReal

/-- |p|²: the sum of the squares of the coordinates. -/
def sqNorm (p : Pt) : EReal := ∑ d : Fin 3, p d * p d

/-- ⟨p, v⟩: the sum of the products of the coordinates. -/
def inner (p v : Pt) : EReal := ∑ d : Fin 3, p d * v d

/-- The squared distance in expanded form, clamped below at zero: max((|p|² + |v|²) − 2·⟨p, v⟩, 0). -/
def sqDist (p v : Pt) : EReal :=
  max ((sqNorm p + sqNorm v) - Ideal.ofBits .f32 0x40000000#32 * inner p v) (Ideal.ofBits .f32 0x00000000#32)

/-- The squared distance from `p` to the nearest of the vertices: the minimum, from +∞, over all of them. -/
def nearest {M : ℕ} (p : Pt) (v : Fin M → Pt) : EReal :=
  (Finset.univ : Finset (Fin M)).fold min (Ideal.ofBits .f32 0x7F800000#32) (fun m => sqDist p (v m))

/-- The sum over the points of the squared distance to the nearest vertex. -/
def sumNearest {P M : ℕ} (p : Fin P → Pt) (v : Fin M → Pt) : EReal := ∑ n : Fin P, nearest (p n) v

/-- That sum divided by 16384.0. -/
def meanNearest {P M : ℕ} (p : Fin P → Pt) (v : Fin M → Pt) : EReal :=
  Ideal.div (sumNearest p v) (Ideal.ofBits .f32 0x46800000#32)

/-- Point `n` of tile `j` among a·c points cut into a tiles of c: the point c·j + n. -/
theorem tile_val {a c : ℕ} (j : Fin a) (n : Fin c) : (finProdFinEquiv (j, n) : Fin (a * c)).val = n.val + c * j.val := rfl

/-- The sum over a·c points is the sum over the a tiles of each tile's sum. -/
theorem sumNearest_tiles {a c M : ℕ} (p : Fin (a * c) → Pt) (v : Fin M → Pt) :
    sumNearest p v = ∑ j : Fin a, sumNearest (fun n : Fin c => p (finProdFinEquiv (j, n))) v := by
  unfold sumNearest
  rw [← Equiv.sum_comp finProdFinEquiv, Fintype.sum_prod_type]

end Cert.Chamfer

end
-- ==== Proof.RefIsMean.lean ====
/-
  The reference program, read at the extended reals, computes the mean nearest-vertex squared distance.

  The reference forms |p|² and |v|² as sums of squares over the three coordinates, ⟨p, v⟩ as a contraction over
  the same axis, the clamped expanded squared distance max((|p|² + |v|²) − 2·⟨p, v⟩, 0) at every (batch, point,
  vertex), its minimum over the vertices from +∞, the sum of those minima over the points from 0, and last the
  quotient by 16384.0. Each stage is read at its coordinates and matched with the corresponding piece of the
  specification; the two sums that start from the float word 0 lose that summand because the word is the real 0.
-/
import proofs.«117292_j46136538694019_1_alg».proof.Proof.Gen.ReferenceIdeal.Read
import proofs.«117292_j46136538694019_1_alg».proof.Proof.Spec
import Idealize.ShloMosaic.PureOps.Reduce
import Idealize.ShloMosaic.PureOps.Ideal.Laws
import Idealize.ShloMosaic.Lib.ValueIdx

noncomputable section

namespace Cert.Chamfer.Ref

open Idealize.ShloMosaic Idealize.ShloMosaic.ValueIdx Cert.ReferenceIdeal Cert.ReferenceIdeal.Gen Cert.ReferenceIdeal.Read

variable (X : (⟨S4x16384x3, .f32⟩ : BufTy).Contents (Elt Ideal)) (Y : (⟨S4x4096x3, .f32⟩ : BufTy).Contents (Elt Ideal))

/-! ### The index maps at coordinates -/

theorem idx_v1_at (b : Fin 4) (n : Fin 16384) (k : Fin 3) : idx_main_v1 (ix2 b n) k = ix3 b n k := by
  funext a; match a with | ⟨0, _⟩ => rfl | ⟨1, _⟩ => rfl | ⟨2, _⟩ => rfl

theorem idx_v3_at (b : Fin 4) (m : Fin 4096) (k : Fin 3) : idx_main_v3 (ix2 b m) k = ix3 b m k := by
  funext a; match a with | ⟨0, _⟩ => rfl | ⟨1, _⟩ => rfl | ⟨2, _⟩ => rfl

theorem lidx_v4_at (b : Fin 4) (n : Fin 16384) (m : Fin 4096) (k : Fin 3) : lidx_main_v4 (ix3 b n m) k = ix3 b n k := by
  funext a; match a with | ⟨0, _⟩ => rfl | ⟨1, _⟩ => rfl | ⟨2, _⟩ => rfl

theorem ridx_v4_at (b : Fin 4) (n : Fin 16384) (m : Fin 4096) (k : Fin 3) : ridx_main_v4 (ix3 b n m) k = ix3 b m k := by
  funext a; match a with | ⟨0, _⟩ => rfl | ⟨1, _⟩ => rfl | ⟨2, _⟩ => rfl

theorem idx_v7_at (b : Fin 4) (n : Fin 16384) (m : Fin 4096) : idx_main_v5 (idx_main_v7 (ix3 b n m)) = ix2 b n := by
  funext a; match a with | ⟨0, _⟩ => rfl | ⟨1, _⟩ => rfl

theorem idx_v8_at (b : Fin 4) (n : Fin 16384) (m : Fin 4096) : idx_main_v6 (idx_main_v8 (ix3 b n m)) = ix2 b m := by
  funext a; match a with | ⟨0, _⟩ => rfl | ⟨1, _⟩ => rfl

theorem idx_v16_at (b : Fin 4) (n : Fin 16384) : idx_main_v16 (ix1 b) n = ix2 b n := by
  funext a; match a with | ⟨0, _⟩ => rfl | ⟨1, _⟩ => rfl

/-- The minimum over the vertices drops the last of the three axes. -/
theorem reduces_d2 : S4x16384x4096.Reduces [2] S4x16384 := by decide

/-! ### The stages at coordinates -/

/-- The first sum of squares at (b, n) is |p|² of point n of batch b. -/
theorem v1_at (b : Fin 4) (n : Fin 16384) :
    val_main_v1 (F := Ideal) X (ix2 b n) = sqNorm (fun d : Fin 3 => X (ix3 b n d)) := by
  rw [val_main_v1_apply, val_main_cst_apply, Ideal.ofBits_def, Ideal.ofBits_zero_f32, zero_add]
  unfold sqNorm
  refine Finset.sum_congr rfl fun k _ => ?_
  rw [val_main_v0_apply, idx_v1_at, Ideal.mulf_def]

/-- The second sum of squares at (b, m) is |v|² of vertex m of batch b. -/
theorem v3_at (b : Fin 4) (m : Fin 4096) :
    val_main_v3 (F := Ideal) Y (ix2 b m) = sqNorm (fun d : Fin 3 => Y (ix3 b m d)) := by
  rw [val_main_v3_apply, val_main_cst_0_apply, Ideal.ofBits_def, Ideal.ofBits_zero_f32, zero_add]
  unfold sqNorm
  refine Finset.sum_congr rfl fun k _ => ?_
  rw [val_main_v2_apply, idx_v3_at, Ideal.mulf_def]

/-- The contraction at (b, n, m) is ⟨p, v⟩ of point n and vertex m of batch b. -/
theorem v4_at (b : Fin 4) (n : Fin 16384) (m : Fin 4096) :
    val_main_v4 (F := Ideal) X Y (ix3 b n m)
      = inner (fun d : Fin 3 => X (ix3 b n d)) (fun d : Fin 3 => Y (ix3 b m d)) := by
  rw [val_main_v4_apply]
  unfold inner
  refine Finset.sum_congr rfl fun k _ => ?_
  rw [lidx_v4_at, ridx_v4_at]

/-- The clamped expanded squared distance at (b, n, m). -/
theorem v14_at (b : Fin 4) (n : Fin 16384) (m : Fin 4096) :
    val_main_v14 (F := Ideal) X Y (ix3 b n m)
      = sqDist (fun d : Fin 3 => X (ix3 b n d)) (fun d : Fin 3 => Y (ix3 b m d)) := by
  rw [val_main_v14_apply, val_main_v13_apply, val_main_cst_2_apply, val_main_v12_apply, val_main_v9_apply,
    val_main_v11_apply, val_main_v10_apply, val_main_cst_1_apply, val_main_v7_apply, val_main_v5_apply,
    val_main_v8_apply, val_main_v6_apply, idx_v7_at, idx_v8_at, v1_at, v3_at, v4_at]
  rfl

/-- The minimum over the vertices at (b, n): the fold of min from +∞ of the squared distances to the vertices. -/
theorem v15_at (b : Fin 4) (n : Fin 16384) :
    val_main_v15 (F := Ideal) X Y (ix2 b n)
      = nearest (fun d : Fin 3 => X (ix3 b n d)) (fun (m : Fin 4096) (d : Fin 3) => Y (ix3 b m d)) := by
  unfold val_main_v15
  refine (Host.reduce_eq_fold_single (FloatOps.minimumf (F := Ideal) (φ := .f32)) (val_main_v14 (F := Ideal) X Y)
    (val_main_cst_3 (F := Ideal)) reducesTo_S4x16384x4096_S4x16384_d2 reduces_d2 h_S_ (ix2 b n)).trans ?_
  unfold nearest
  rw [val_main_cst_3_apply, Ideal.ofBits_def]
  refine Finset.fold_congr fun m _ => ?_
  refine Eq.trans (congrArg (val_main_v14 (F := Ideal) X Y) (?_ : _ = ix3 b n m)) (v14_at X Y b n m)
  funext a; match a with | ⟨0, _⟩ => rfl | ⟨1, _⟩ => rfl | ⟨2, _⟩ => rfl

/-- The reference's last stage at batch b is the mean nearest-vertex squared distance of that batch's points and vertices. -/
theorem ref_eq (X : (⟨S4x16384x3, .f32⟩ : BufTy).Contents (Elt Ideal)) (Y : (⟨S4x4096x3, .f32⟩ : BufTy).Contents (Elt Ideal)) (b : Fin 4) :
    val_main_v18 (F := Ideal) X Y (ix1 b)
      = Cert.Chamfer.meanNearest (fun (n : Fin 16384) (d : Fin 3) => X (ix3 b n d)) (fun (m : Fin 4096) (d : Fin 3) => Y (ix3 b m d)) := by
  rw [val_main_v18_apply, val_main_v17_apply, val_main_cst_5_apply, Ideal.hostDivf_def, val_main_v16_apply,
    val_main_cst_4_apply, Ideal.ofBits_def, Ideal.ofBits_def, Ideal.ofBits_zero_f32, zero_add]
  unfold meanNearest sumNearest
  have h : ∀ n : Fin 16384, val_main_v15 (F := Ideal) X Y (idx_main_v16 (ix1 b) n)
      = nearest (fun d : Fin 3 => X (ix3 b n d)) (fun (m : Fin 4096) (d : Fin 3) => Y (ix3 b m d)) :=
    fun n => by rw [idx_v16_at, v15_at]
  rw [Finset.sum_congr rfl fun n _ => h n]

end Cert.Chamfer.Ref

end
-- ==== Proof.Pieces.lean ====
/-
  What one run of the kernel body leaves behind, as values.

  The body loads the tile's block of source points and the batch's block of target vertices, and keeps a running
  total in a scratch row of 128 lanes. At the first tile of a batch it stores zero into the scratch and then the
  accumulating payload of (the two blocks, what it reads back: that zero); at a later tile the accumulating payload of
  (the two blocks, what the tile before left); at the last tile of a batch it also stores, into the output block,
  the final payload of the scratch it has just written. Each statement below says so of the contents the body's
  stores leave, for any float interpretation.
-/
import proofs.«117292_j46136538694019_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Chamfer.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A tile that is neither the first nor the last of its batch: the scratch, holding `xs0`, is left at the
    accumulating payload of the two input blocks and `xs0`. -/
theorem sout_B (c : Dev nD) (i : grid0.Coords) (a2 : Memref sig .tc .vmem S1x3x512 .f32) (h2 : a2.IsWhole)
    (a3 : Memref sig .tc .vmem S1x3x4096 .f32) (h3 : a3.IsWhole) (a4 : Memref sig .tc .vmem S1x1x128 .f32) (h4 : a4.IsWhole)
    (a5 : Memref sig .tc .vmem S1x128 .f32) (h5 : a5.IsWhole) (hc0 : ¬cond0_0 i) (hc1 : ¬cond0_1 i)
    (x0 : Vec F S1x3x512 .f32) (x1 : Vec F S1x3x4096 .f32) (xs0 : Vec F S1x128 .f32) :
    sout0_B_0 c i a2 h2 a3 h3 a4 h4 a5 h5 hc0 hc1 x0 x1 xs0 = k0_pay3 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S1x3x512) hz3,
    View.ld_unit_zero (S := S1x3x4096) hz3, View.ld_unit_zero (S := S1x128) hz2]

/-- The first tile of a batch: the scratch is reset to the zero payload, read back, and left at the accumulating
    payload of the two input blocks and that zero. -/
theorem sout_A (c : Dev nD) (i : grid0.Coords) (a2 : Memref sig .tc .vmem S1x3x512 .f32) (h2 : a2.IsWhole)
    (a3 : Memref sig .tc .vmem S1x3x4096 .f32) (h3 : a3.IsWhole) (a4 : Memref sig .tc .vmem S1x1x128 .f32) (h4 : a4.IsWhole)
    (a5 : Memref sig .tc .vmem S1x128 .f32) (h5 : a5.IsWhole) (hc0 : cond0_0 i) (hc1 : ¬cond0_1 i)
    (x0 : Vec F S1x3x512 .f32) (x1 : Vec F S1x3x4096 .f32) :
    sout0_A_0 c i a2 h2 a3 h3 a4 h4 a5 h5 hc0 hc1 x0 x1 = k0_pay3 x0 x1 (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x128) hz2, View.readCov_unit_zero (S := S1x128) _ hz2]
  simp only [View.readAt_eq_ld, h2.read_unread, h3.read_unread, View.ld_unit_zero (S := S1x3x512) hz3,
    View.ld_unit_zero (S := S1x3x4096) hz3, View.ld_unit_zero (S := S1x128) hz2]

/-- The last tile of a batch leaves the scratch as any later tile does, -/
theorem sout_C (c : Dev nD) (i : grid0.Coords) (a2 : Memref sig .tc .vmem S1x3x512 .f32) (h2 : a2.IsWhole)
    (a3 : Memref sig .tc .vmem S1x3x4096 .f32) (h3 : a3.IsWhole) (a4 : Memref sig .tc .vmem S1x1x128 .f32) (h4 : a4.IsWhole)
    (a5 : Memref sig .tc .vmem S1x128 .f32) (h5 : a5.IsWhole) (hc0 : ¬cond0_0 i) (hc1 : cond0_1 i)
    (x0 : Vec F S1x3x512 .f32) (x1 : Vec F S1x3x4096 .f32) (xs0 : Vec F S1x128 .f32) :
    sout0_C_0 c i a2 h2 a3 h3 a4 h4 a5 h5 hc0 hc1 x0 x1 xs0 = k0_pay3 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S1x3x512) hz3,
    View.ld_unit_zero (S := S1x3x4096) hz3, View.ld_unit_zero (S := S1x128) hz2]

/-- and stores into the output block the final payload of what it has just left in the scratch. -/
theorem out_C (c : Dev nD) (i : grid0.Coords) (a2 : Memref sig .tc .vmem S1x3x512 .f32) (h2 : a2.IsWhole)
    (a3 : Memref sig .tc .vmem S1x3x4096 .f32) (h3 : a3.IsWhole) (a4 : Memref sig .tc .vmem S1x1x128 .f32) (h4 : a4.IsWhole)
    (a5 : Memref sig .tc .vmem S1x128 .f32) (h5 : a5.IsWhole) (hc0 : ¬cond0_0 i) (hc1 : cond0_1 i)
    (x0 : Vec F S1x3x512 .f32) (x1 : Vec F S1x3x4096 .f32) (xs0 : Vec F S1x128 .f32) :
    out0_C_2 c i a2 h2 a3 h3 a4 h4 a5 h5 hc0 hc1 x0 x1 xs0 = k0_pay1 (k0_pay3 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread, View.ld_unit_zero (S := S1x3x512) hz3,
    View.ld_unit_zero (S := S1x3x4096) hz3, View.ld_unit_zero (S := S1x128) hz2, View.readCov_unit_zero (S := S1x128) _ hz2]

end Cert.Chamfer.Pieces
end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.TilePayload.lean ====
/-
  The accumulating store's payload of the nearest-vertex kernel, read at a lane.

  A tile is a [1, 3, 512] block of points and the vertices a [1, 3, 4096] block, coordinate d of point n stored
  at (0, d, n). The payload drops the unit axis, takes the squared norms as sums over the coordinate axis, takes
  the cross term as the product of the two blocks contracting that axis, lays the points' norms out as a column
  and the vertices' as a row, forms (|p|² + |v|²) − 2·⟨p, v⟩ clamped below at zero at every (point, vertex),
  takes the minimum along each row from +∞, sums the 512 minima, and adds that one number to every lane of the
  scratch. Over the extended reals each of these steps is exact, so at lane l the payload is the scratch there
  plus the tile's sum of nearest-vertex squared distances.

  One lemma per reduction or layout step, each over arbitrary arrays of the literal shapes at explicit
  coordinates; the last theorem chains them.
-/
import proofs.«117292_j46136538694019_1_alg».proof.Proof.Gen.KernelIdeal.Skeleton
import proofs.«117292_j46136538694019_1_alg».proof.Proof.Spec
import proofs.«117292_j46136538694019_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.Chamfer.Tile

open Idealize.ShloMosaic Idealize.ShloMosaic.ValueIdx Cert.KernelIdeal Cert.KernelIdeal.Gen

/-! ## The reductions at an index -/

/-- The sum over the rows of a [c, n] array from the zero pattern, read at column p: the sum over the rows of the
    entry at (d, p). -/
theorem row_sum_apply {c n : ℕ} (src : FVec Ideal ⟨2, ![c, n]⟩ .f32)
    (h : (⟨2, ![c, n]⟩ : Shape).Reduces [0] ⟨1, ![n]⟩) (hφ : FKind.Formats .f32)
    (hacc : (0x00000000#32 : BitVec (FTy.bits .f32)) = FKind.add.neutral .f32 hφ) (p : Fin n) :
    multiReduction (F := Ideal) .add [0] ⟨1, ![n]⟩ src 0x00000000#32 h hφ hacc (ix1 p) = ∑ d : Fin c, src (ix2 d p) :=
  (Ideal.multiReduction_add_single src _ h hφ hacc (ix1 p)).trans
    (Finset.sum_congr rfl fun k _ => congrArg src
      (funext fun ax => Fin.ext (by match ax with | ⟨0, _⟩ => rfl | ⟨1, _⟩ => rfl)))

/-- The minimum along the lanes of an [a, b] array from the accumulator's value, read at row p: the fold of min
    over the row, in any order (min on the extended reals commutes and associates). -/
theorem lane_min_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.minimumf.neutral .f32 hφ) (p : Fin a) :
    multiReduction (F := Ideal) .minimumf [1] ⟨1, ![a]⟩ src acc h hφ hacc (ix1 p)
      = (Finset.univ : Finset (Fin b)).fold min (Ideal.ofBits .f32 acc) (fun q => src (ix2 p q)) := by
  refine (multiReduction_minimumf_eq_fold src _ h hφ hacc (ix1 p)).trans ?_
  refine (h.fold_filter_drop_single _ _ src (ix1 p)).trans ?_
  have e : (src ∘ h.lift (ix1 p)) = fun q : Fin b => src (ix2 p q) :=
    funext fun q => congrArg src (funext fun ax => Fin.ext (by match ax with | ⟨0, _⟩ => rfl | ⟨1, _⟩ => rfl))
  rw [e]
  rfl

/-! ## The product of the two blocks at an index -/

/-- The left operand's index on its contracted axis 0: the contraction coordinate. -/
theorem lhs_axis0 (i : S512x4096.Idx) (k : dot_S3x512_S3x4096_S512x4096_0_0_1_1_n_n.contr.Idx) :
    (dot_S3x512_S3x4096_S512x4096_0_0_1_1_n_n.lhsIdx i k 0).val = (k ⟨0, by decide⟩).val :=
  dot_S3x512_S3x4096_S512x4096_0_0_1_1_n_n.lhsIdx_val_of_single rfl i k
/-- The left operand's index on its free axis 1: the result's row. -/
theorem lhs_axis1 (i : S512x4096.Idx) (k : dot_S3x512_S3x4096_S512x4096_0_0_1_1_n_n.contr.Idx) :
    (dot_S3x512_S3x4096_S512x4096_0_0_1_1_n_n.lhsIdx i k 1).val = (i 0).val := by
  unfold DotDims.lhsIdx
  rw [dif_neg (show ¬(1 : Fin S3x512.rank) ∈ dot_S3x512_S3x4096_S512x4096_0_0_1_1_n_n.lhsBatch by decide), dif_pos (show (1 : Fin S3x512.rank) ∈ dot_S3x512_S3x4096_S512x4096_0_0_1_1_n_n.lhsNonContracting by decide)]
  rfl
/-- The right operand's index on its contracted axis 0: the contraction coordinate. -/
theorem rhs_axis0 (i : S512x4096.Idx) (k : dot_S3x512_S3x4096_S512x4096_0_0_1_1_n_n.contr.Idx) :
    (dot_S3x512_S3x4096_S512x4096_0_0_1_1_n_n.rhsIdx i k 0).val = (k ⟨0, by decide⟩).val :=
  dot_S3x512_S3x4096_S512x4096_0_0_1_1_n_n.rhsIdx_val_of_single rfl i k
/-- The right operand's index on its free axis 1: the result's column. -/
theorem rhs_axis1 (i : S512x4096.Idx) (k : dot_S3x512_S3x4096_S512x4096_0_0_1_1_n_n.contr.Idx) :
    (dot_S3x512_S3x4096_S512x4096_0_0_1_1_n_n.rhsIdx i k 1).val = (i 1).val := by
  unfold DotDims.rhsIdx
  rw [dif_neg (show ¬(1 : Fin S3x4096.rank) ∈ dot_S3x512_S3x4096_S512x4096_0_0_1_1_n_n.rhsBatch by decide), dif_pos (show (1 : Fin S3x4096.rank) ∈ dot_S3x512_S3x4096_S512x4096_0_0_1_1_n_n.rhsNonContracting by decide)]
  rfl

/-- The product of the two [3, ·] blocks contracting their coordinate axes, into a zero accumulator, read at
    (p, q): the sum over the three coordinates of the products. -/
theorem cross_apply (l : FVec Ideal S3x512 .bf16) (r : FVec Ideal S3x4096 .bf16) (p : Fin 512) (q : Fin 4096) :
    matmul (F := Ideal) dot_S3x512_S3x4096_S512x4096_0_0_1_1_n_n none l r (constant (F := Ideal) S512x4096 .f32 0x00000000#32) (ix2 p q)
      = ∑ d : Fin 3, l (ix2 d p) * r (ix2 d q) := by
  refine (Ideal.matmul_constant_zero_apply dot_S3x512_S3x4096_S512x4096_0_0_1_1_n_n none l r (ix2 p q)).trans ?_
  rw [← Equiv.sum_comp (ValueIdx.contrEquiv1 dot_S3x512_S3x4096_S512x4096_0_0_1_1_n_n 3 rfl rfl).symm]
  refine Finset.sum_congr rfl fun k _ => ?_
  have hk := ValueIdx.contrEquiv1_symm_val dot_S3x512_S3x4096_S512x4096_0_0_1_1_n_n 3 rfl rfl k
  have el : dot_S3x512_S3x4096_S512x4096_0_0_1_1_n_n.lhsIdx (ix2 p q) ((ValueIdx.contrEquiv1 dot_S3x512_S3x4096_S512x4096_0_0_1_1_n_n 3 rfl rfl).symm k) = ix2 k p := funext fun a => Fin.ext (by
    match a with
    | ⟨0, _⟩ => exact (lhs_axis0 _ _).trans hk
    | ⟨1, _⟩ => exact lhs_axis1 _ _)
  have er : dot_S3x512_S3x4096_S512x4096_0_0_1_1_n_n.rhsIdx (ix2 p q) ((ValueIdx.contrEquiv1 dot_S3x512_S3x4096_S512x4096_0_0_1_1_n_n 3 rfl rfl).symm k) = ix2 k q := funext fun a => Fin.ext (by
    match a with
    | ⟨0, _⟩ => exact (rhs_axis0 _ _).trans hk
    | ⟨1, _⟩ => exact rhs_axis1 _ _)
  rw [el, er]

/-! ## One entry of the distance table -/

/-- The element at position (0, 0) of a [1, 1] array, by coordinates. -/
theorem extractAt_00 {α : Type} (v : S1x1.Idx → α) (h : ∀ a, (![0, 0] : Fin 2 → ℕ) a < S1x1.size a) :
    extractAt ![0, 0] v h = v (ix2 (0 : Fin 1) (0 : Fin 1)) :=
  congrArg v (funext fun a => Fin.ext (by match a with | ⟨0, _⟩ => rfl | ⟨1, _⟩ => rfl))

/-- One entry of the table of clamped squared distances between 512 points and 4096 vertices, both given as
    [3, ·] blocks of coordinates: the squared norms summed over the coordinate axis, the first as a column and
    the second as a row, minus twice the product of the blocks, clamped below at zero. -/
theorem table_apply (a : FVec Ideal S3x512 .f32) (b : FVec Ideal S3x4096 .f32) (hφ : FKind.Formats .f32)
    (hacc : (0x00000000#32 : BitVec (FTy.bits .f32)) = FKind.add.neutral .f32 hφ) (p : Fin 512) (q : Fin 4096) :
    maximumf (F := Ideal)
        (subf
          (addf
            (broadcastTo S512x4096 (shapeCast S512x1 (multiReduction (F := Ideal) .add [0] S512 (mulf a a) 0x00000000#32 reduces_S3x512_S512 hφ hacc) shapeCasts_S512_S512x1) broadcasts_S512x1_S512x4096)
            (broadcastTo S512x4096 (shapeCast S1x4096 (multiReduction (F := Ideal) .add [0] S4096 (mulf b b) 0x00000000#32 reduces_S3x4096_S4096 hφ hacc) shapeCasts_S4096_S1x4096) broadcasts_S1x4096_S512x4096))
          (mulf (broadcast S512x4096 (FloatOps.ofBits (F := Ideal) .f32 0x40000000#32))
            (matmul dot_S3x512_S3x4096_S512x4096_0_0_1_1_n_n none (truncf .bf16 a bitsLt_bf16_f32) (truncf .bf16 b bitsLt_bf16_f32) (constant (F := Ideal) S512x4096 .f32 0x00000000#32))))
        (broadcast S512x4096 (FloatOps.ofBits (F := Ideal) .f32 0x00000000#32)) (ix2 p q)
      = Cert.Chamfer.sqDist (fun d : Fin 3 => a (ix2 d p)) (fun d : Fin 3 => b (ix2 d q)) := by
  rw [maximumf_apply, subf_apply, addf_apply, mulf_apply, broadcast_apply, broadcast_apply,
    Cert.LibKeepdims.column_broadcast_apply, broadcastTo_1b_ab_apply, shapeCast_a_1a_apply, row_sum_apply, row_sum_apply,
    cross_apply]
  rfl

/-- The clamped squared distance depends on its two points through their coordinates only. -/
theorem sqDist_congr {p p' v v' : Cert.Chamfer.Pt} (hp : ∀ d, p d = p' d) (hv : ∀ d, v d = v' d) :
    Cert.Chamfer.sqDist p v = Cert.Chamfer.sqDist p' v' := by
  rw [funext hp, funext hv]

/-! ## The payload -/

/-- The accumulating store's payload, at lane l: what the scratch held there plus the tile's sum of nearest-vertex squared distances (the block stores coordinate d of point n at (0, d, n)). -/
theorem pay3_apply (x0 : Vec Ideal S1x3x512 .f32) (x1 : Vec Ideal S1x3x4096 .f32) (s : Vec Ideal S1x128 .f32) (l : Fin 128) :
    k0_pay3 (F := Ideal) x0 x1 s (ix2 (0 : Fin 1) l)
      = s (ix2 (0 : Fin 1) l) + Cert.Chamfer.sumNearest (fun (n : Fin 512) (d : Fin 3) => x0 (ix3 (0 : Fin 1) d n)) (fun (m : Fin 4096) (d : Fin 3) => x1 (ix3 (0 : Fin 1) d m)) := by
  unfold k0_pay3
  refine (congrFun (shapeCast_self _ shapeCasts_S1x128_S1x128) (ix2 (0 : Fin 1) l)).trans ?_
  refine (addf_apply _ _ (ix2 (0 : Fin 1) l)).trans ?_
  refine congrArg (s (ix2 (0 : Fin 1) l) + ·) ?_
  refine (broadcast_apply _ (ix2 (0 : Fin 1) l)).trans ?_
  refine (extractAt_00 _ inpos_S1x1_p0_0).trans ?_
  refine (shapeCast_a_1a_apply _ shapeCasts_S1_S1x1 (0 : Fin 1) (0 : Fin 1)).trans ?_
  refine (Cert.LibKeepdims.lane_sum_apply _ reduces_S1x512_S1 _ _ (0 : Fin 1)).trans ?_
  unfold Cert.Chamfer.sumNearest
  refine Finset.sum_congr rfl fun n _ => ?_
  refine (shapeCast_a_1a_apply _ shapeCasts_S512_S1x512 (0 : Fin 1) n).trans ?_
  refine (lane_min_apply _ _ reduces_S512x4096_S512 _ _ n).trans ?_
  unfold Cert.Chamfer.nearest
  refine congrArg (fun f => Finset.fold min (Ideal.ofBits .f32 0x7F800000#32) f Finset.univ) (funext fun q => ?_)
  refine (table_apply (shapeCast S3x512 x0 shapeCasts_S1x3x512_S3x512) (shapeCast S3x4096 x1 shapeCasts_S1x3x4096_S3x4096) _ _ n q).trans ?_
  exact sqDist_congr (fun d => shapeCast_1ab_ab_apply x0 shapeCasts_S1x3x512_S3x512 d n)
    (fun d => shapeCast_1ab_ab_apply x1 shapeCasts_S1x3x4096_S3x4096 d q)

end Cert.Chamfer.Tile

end
-- ==== Proof.EdgePayloads.lean ====
/-
  The two short values the kernel stores outside its tile loop, read at the extended reals.

  The value that resets the accumulator is the float word 0 at every lane, which is the real 0. The value stored
  last is the accumulator divided, lane by lane, by the float word 16384.0; the reshaping from one row of 128
  lanes to a 1 × 1 × 128 block only adds a leading unit axis, so lane l of the block is lane l of the row.
-/
import proofs.«117292_j46136538694019_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Chamfer.Tile

open Idealize.ShloMosaic Idealize.ShloMosaic.ValueIdx Cert.KernelIdeal Cert.KernelIdeal.Gen

/-- The reset store's payload is zero at every lane. -/
theorem pay2_apply (l : Fin 128) : k0_pay2 (F := Ideal) (ix2 (0 : Fin 1) l) = 0 := by
  show shapeCast S1x128 (broadcast S1x128 (Scalar.ofBits (F := Ideal) .f32 0x00000000#32)) shapeCasts_S1x128_S1x128
    (ix2 (0 : Fin 1) l) = 0
  rw [shapeCast_self, broadcast_apply]
  exact Ideal.ofBits_zero_f32

/-- The final store's payload, at lane l: the scratch there divided by 16384.0. -/
theorem pay1_apply (s : Vec Ideal S1x128 .f32) (l : Fin 128) :
    k0_pay1 (F := Ideal) s (ix3 (0 : Fin 1) (0 : Fin 1) l) = Ideal.div (s (ix2 (0 : Fin 1) l)) (Ideal.ofBits .f32 0x46800000#32) := by
  show shapeCast S1x1x128 (divf s (broadcast S1x128 (Scalar.ofBits (F := Ideal) .f32 0x46800000#32))) shapeCasts_S1x128_S1x1x128
    (ix3 (0 : Fin 1) (0 : Fin 1) l) = _
  rw [shapeCast_ab_1ab_apply, divf_apply, broadcast_apply]
  rfl

end Cert.Chamfer.Tile

end
-- ==== Proof.TileRun.lean ====
/-
  What the kernel leaves in its result, read off its run.

  The grid has 128 points: point t = 32·b + j is tile j (512 source points) of batch b. At every point the body sees
  the tile's block of source points and the batch's block of target vertices (both with the coordinate axis second,
  as the host transposes them before the call), and a scratch row of 128 lanes that lives across the points.

    * The blocks are slices of the launched arrays: entry (0, d, n) of the source block is coordinate d of point
      512·j + n of batch b; entry (0, d, k) of the vertex block is coordinate d of vertex k of batch b.
    * The scratch after point t holds, at every lane, the sum of the tile sums of batch b from tile 0 to tile j:
      the first tile of a batch stores zero and adds its own sum, every later tile adds its sum to what the tile
      before left. This is an induction on the point, not an enumeration of the grid.
    * At the last tile of a batch (j = 31) the body writes the completed scratch divided by 16384.0 into the
      output block, and only those points write the block back: row b of the [4, 1, 128] output array. The 32 tile
      sums of a batch add up to the batch's sum over its 16384 points, so row b holds the batch's mean at every lane.
    * The host then keeps lane 0 of every row.

  Hence the result at b is the mean, over the points of batch b, of the squared distance to the nearest vertex.
-/
import proofs.«117292_j46136538694019_1_alg».proof.Proof.Pieces
import proofs.«117292_j46136538694019_1_alg».proof.Proof.TilePayload
import proofs.«117292_j46136538694019_1_alg».proof.Proof.EdgePayloads
import proofs.«117292_j46136538694019_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Chamfer.Run

open Cert.KernelIdeal Cert.KernelIdeal.Gen Cert.Chamfer

variable (m : (ℓ : Loc nD τ sig) → Buf (Elt Ideal) ℓ) (ρ : Dev nD → PrngReg)

/-- The source points and the target vertices as launched, on core `c`. -/
abbrev srcArr (c : Dev nD) : FVec Ideal S4x16384x3 .f32 := m ((c : Thread nD τ).loc main_arg0)
abbrev tgtArr (c : Dev nD) : FVec Ideal S4x4096x3 .f32 := m ((c : Thread nD τ).loc main_arg1)

/-- Batch `b`'s points of a [4, N, 3] array: point `n` is its three coordinates. -/
abbrev pts {N : ℕ} (A : (⟨3, ![4, N, 3]⟩ : Shape).Idx → EReal) (b : Fin 4) : Fin N → Pt := fun n d => A (ix3 b n d)

/-- The block indices of the three windows at grid point `t` = 32·batch + tile, decided over the grid: the source
    window sits at (batch, 0, tile), the vertex window and the output window at (batch, 0, 0). -/
theorem idx_facts : ∀ t : Fin cfg0.N,
    win0_0.index t (0 : Fin 3) = t.val / 32 ∧ win0_0.index t (1 : Fin 3) = 0 ∧ win0_0.index t (2 : Fin 3) = t.val % 32
    ∧ win0_1.index t (0 : Fin 3) = t.val / 32 ∧ win0_1.index t (1 : Fin 3) = 0 ∧ win0_1.index t (2 : Fin 3) = 0
    ∧ win0_2.index t (0 : Fin 3) = t.val / 32 ∧ win0_2.index t (1 : Fin 3) = 0 ∧ win0_2.index t (2 : Fin 3) = 0 :=
  (by decide +kernel : ∀ t : Fin grid0.N, _)

/-- The batch and the tile of a grid point. -/
def batchOf (t : Fin cfg0.N) : Fin 4 := ⟨t.val / 32, by have := t.isLt; have hN : cfg0.N = 128 := N_0; omega⟩
def tileOf (t : Fin cfg0.N) : Fin 32 := ⟨t.val % 32, Nat.mod_lt _ (by decide)⟩

/-- The kernel's first operand as the region finds it: the source points with their last two axes exchanged. -/
theorem V_src (c : Dev nD) :
    (V m c main_v0 : FVec Ideal S4x3x16384 .f32) = transpose S4x3x16384 [0, 2, 1] (srcArr m c) transposes_S4x16384x3_S4x3x16384_0_2_1 := by
  show StableHlo.after hostOps0 (fun b => m (c, b)) (Proc.devRef .tc main_v0) = _
  after_results

/-- The second operand: the target vertices likewise. -/
theorem V_tgt (c : Dev nD) :
    (V m c main_v1 : FVec Ideal S4x3x4096 .f32) = transpose S4x3x4096 [0, 2, 1] (tgtArr m c) transposes_S4x4096x3_S4x3x4096_0_2_1 := by
  show StableHlo.after hostOps0 (fun b => m (c, b)) (Proc.devRef .tc main_v1) = _
  after_results

/-- The source block at grid point `t` holds, at (0, d, n), coordinate `d` of point 512·tile + n of the batch. -/
theorem src_block (c : Dev nD) (t : Fin cfg0.N) (d : Fin 3) (n : Fin 512) :
    (iblk m c 0 t : Vec Ideal S1x3x512 .f32) (ix3 (0 : Fin 1) d n)
      = pts (srcArr m c) (batchOf t) (finProdFinEquiv (tileOf t, n)) d := by
  unfold iblk
  rw [View.read_apply]
  show V m c main_v0 (((cfg0.win 0).blk t).view.emb (ix3 (0 : Fin 1) d n)) = _
  rw [V_src]
  have e : ((cfg0.win 0).blk t).view.emb (ix3 (0 : Fin 1) d n)
      = (ix3 (batchOf t) d (finProdFinEquiv (tileOf t, n)) : S4x3x16384.Idx) := by
    obtain ⟨e0, e1, e2, -⟩ := idx_facts t
    funext a; apply Fin.ext
    match a with
    | ⟨0, _⟩ => show win0_0.index t (0 : Fin 3) * 1 + 1 * 0 = t.val / 32; omega
    | ⟨1, _⟩ => show win0_0.index t (1 : Fin 3) * 3 + 1 * d.val = d.val; omega
    | ⟨2, _⟩ => show win0_0.index t (2 : Fin 3) * 512 + 1 * n.val = n.val + 512 * (t.val % 32); omega
  rw [e]
  exact transpose_ix3_021_apply _ _ _ _ _

/-- The vertex block at grid point `t` holds, at (0, d, k), coordinate `d` of vertex `k` of the batch. -/
theorem tgt_block (c : Dev nD) (t : Fin cfg0.N) (d : Fin 3) (k : Fin 4096) :
    (iblk m c 1 t : Vec Ideal S1x3x4096 .f32) (ix3 (0 : Fin 1) d k) = pts (tgtArr m c) (batchOf t) k d := by
  unfold iblk
  rw [View.read_apply]
  show V m c main_v1 (((cfg0.win 1).blk t).view.emb (ix3 (0 : Fin 1) d k)) = _
  rw [V_tgt]
  have e : ((cfg0.win 1).blk t).view.emb (ix3 (0 : Fin 1) d k) = (ix3 (batchOf t) d k : S4x3x4096.Idx) := by
    obtain ⟨-, -, -, e0, e1, e2, -⟩ := idx_facts t
    funext a; apply Fin.ext
    match a with
    | ⟨0, _⟩ => show win0_1.index t (0 : Fin 3) * 1 + 1 * 0 = t.val / 32; omega
    | ⟨1, _⟩ => show win0_1.index t (1 : Fin 3) * 3 + 1 * d.val = d.val; omega
    | ⟨2, _⟩ => show win0_1.index t (2 : Fin 3) * 4096 + 1 * k.val = k.val; omega
  rw [e]
  exact transpose_ix3_021_apply _ _ _ _ _

/-- The sum, over the 512 points of tile `k` of batch `b`, of the squared distance to the batch's nearest vertex. -/
def tileSum (c : Dev nD) (b : Fin 4) (k : Fin 32) : EReal :=
  sumNearest (fun n : Fin 512 => pts (srcArr m c) b (finProdFinEquiv (k, n))) (pts (tgtArr m c) b)

/-- The same for any two naturals (zero off the grid), so that sums over ranges of tiles can be written. -/
def tileSumN (c : Dev nD) (b k : ℕ) : EReal :=
  if h : b < 4 ∧ k < 32 then tileSum m c ⟨b, h.1⟩ ⟨k, h.2⟩ else 0

/-- What the accumulating payload adds at grid point `t`: the tile sum of the point's batch and tile. -/
theorem point_tile (c : Dev nD) (t : Fin cfg0.N) :
    sumNearest (fun (n : Fin 512) (d : Fin 3) => (iblk m c 0 t : Vec Ideal S1x3x512 .f32) (ix3 (0 : Fin 1) d n))
        (fun (k : Fin 4096) (d : Fin 3) => (iblk m c 1 t : Vec Ideal S1x3x4096 .f32) (ix3 (0 : Fin 1) d k))
      = tileSumN m c (t.val / 32) (t.val % 32) := by
  have hN : cfg0.N = 128 := N_0
  have hb : t.val / 32 < 4 ∧ t.val % 32 < 32 := by have := t.isLt; omega
  rw [tileSumN, dif_pos hb]
  unfold tileSum
  have e0 : (fun (n : Fin 512) (d : Fin 3) => (iblk m c 0 t : Vec Ideal S1x3x512 .f32) (ix3 (0 : Fin 1) d n))
      = fun n : Fin 512 => pts (srcArr m c) (batchOf t) (finProdFinEquiv (tileOf t, n)) :=
    funext fun n => funext fun d => src_block m c t d n
  have e1 : (fun (k : Fin 4096) (d : Fin 3) => (iblk m c 1 t : Vec Ideal S1x3x4096 .f32) (ix3 (0 : Fin 1) d k))
      = pts (tgtArr m c) (batchOf t) :=
    funext fun k => funext fun d => tgt_block m c t d k
  rw [e0, e1]
  rfl

/-- After the first tile of a batch the scratch holds, at every lane, that tile's sum. -/
theorem scratch_first (c : Dev nD) (t : Fin cfg0.N) (h0 : t.val % 32 = 0) (h1 : ¬t.val % 32 = 31) (l : Fin 128) :
    ((outsAt0 m c t.val t.isLt).2 : Vec Ideal S1x128 .f32) (ix2 (0 : Fin 1) l) = tileSumN m c (t.val / 32) (t.val % 32) := by
  rw [outsAt0_A m c t h0 h1]
  dsimp only
  refine (congrFun (Pieces.sout_A (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (iblk m c 0 t) (iblk m c 1 t))
    (ix2 (0 : Fin 1) l)).trans ?_
  refine (Tile.pay3_apply (iblk m c 0 t) (iblk m c 1 t) (k0_pay2 (F := Ideal)) l).trans ?_
  rw [Tile.pay2_apply, zero_add]
  exact point_tile m c t

/-- After any later tile it holds what the tile before left plus this tile's sum. -/
theorem scratch_next (c : Dev nD) (t : Fin cfg0.N) (h0 : ¬t.val % 32 = 0) (l : Fin 128) :
    ((outsAt0 m c t.val t.isLt).2 : Vec Ideal S1x128 .f32) (ix2 (0 : Fin 1) l)
      = ((outsAt0 m c (t.val - 1) (Nat.lt_of_le_of_lt (Nat.sub_le _ _) t.isLt)).2 : Vec Ideal S1x128 .f32) (ix2 (0 : Fin 1) l)
        + tileSumN m c (t.val / 32) (t.val % 32) := by
  by_cases h1 : t.val % 32 = 31
  · rw [outsAt0_C m c t h0 h1]
    dsimp only
    refine (congrFun (Pieces.sout_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) (ix2 (0 : Fin 1) l)).trans ?_
    refine (Tile.pay3_apply (iblk m c 0 t) (iblk m c 1 t) _ l).trans ?_
    rw [point_tile m c t]
  · rw [outsAt0_B m c t h0 h1]
    dsimp only
    refine (congrFun (Pieces.sout_B (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2) (ix2 (0 : Fin 1) l)).trans ?_
    refine (Tile.pay3_apply (iblk m c 0 t) (iblk m c 1 t) _ l).trans ?_
    rw [point_tile m c t]

/-- So after grid point `n` the scratch holds, at every lane, the sum of the tile sums of the point's batch from its
    first tile up to the point's own: by induction on the point. -/
theorem scratch_eq (c : Dev nD) (l : Fin 128) : ∀ (n : ℕ) (h : n < cfg0.N),
    ((outsAt0 m c n h).2 : Vec Ideal S1x128 .f32) (ix2 (0 : Fin 1) l)
      = ∑ k ∈ Finset.range (n % 32 + 1), tileSumN m c (n / 32) k
  | 0, h => by
    rw [scratch_first m c ⟨0, h⟩ rfl (by dsimp only; omega) l]
    simp
  | n + 1, h => by
    by_cases h0 : (n + 1) % 32 = 0
    · rw [scratch_first m c ⟨n + 1, h⟩ h0 (by dsimp only; omega) l]
      dsimp only
      rw [h0, Finset.sum_range_one]
    · rw [scratch_next m c ⟨n + 1, h⟩ h0 l]
      show ((outsAt0 m c n (Nat.lt_of_succ_lt h)).2 : Vec Ideal S1x128 .f32) (ix2 (0 : Fin 1) l) + tileSumN m c ((n + 1) / 32) ((n + 1) % 32) = _
      rw [scratch_eq c l n (Nat.lt_of_succ_lt h)]
      have e1 : (n + 1) / 32 = n / 32 := by omega
      have e2 : (n + 1) % 32 = n % 32 + 1 := by omega
      rw [e1, e2, Finset.sum_range_succ (fun k => tileSumN m c (n / 32) k) (n % 32 + 1)]

/-- The mean nearest-vertex squared distance of batch `b` of the launched arrays. -/
def batchMean (c : Dev nD) (b : Fin 4) : EReal := meanNearest (pts (srcArr m c) b) (pts (tgtArr m c) b)

/-- A batch's 32 tile sums add up to the batch's sum over all its 16384 points. -/
theorem tiles_sum (c : Dev nD) (b : ℕ) (hb : b < 4) :
    ∑ k ∈ Finset.range 32, tileSumN m c b k = sumNearest (pts (srcArr m c) ⟨b, hb⟩) (pts (tgtArr m c) ⟨b, hb⟩) := by
  rw [Finset.sum_range (fun k => tileSumN m c b k)]
  refine Eq.trans ?_ (sumNearest_tiles (a := 32) (c := 512) (pts (srcArr m c) ⟨b, hb⟩) (pts (tgtArr m c) ⟨b, hb⟩)).symm
  refine Finset.sum_congr rfl fun k _ => ?_
  rw [tileSumN, dif_pos ⟨hb, k.isLt⟩]
  rfl

/-- At the last tile of a batch the output block holds, at every lane, the batch's mean: the scratch it has just
    completed, all 32 tile sums, divided by 16384.0. -/
theorem out_last (c : Dev nD) (t : Fin cfg0.N) (h31 : t.val % 32 = 31) (l : Fin 128) :
    ((outsAt0 m c t.val t.isLt).1 : Vec Ideal S1x1x128 .f32) (ix3 (0 : Fin 1) (0 : Fin 1) l) = batchMean m c (batchOf t) := by
  have hN : cfg0.N = 128 := N_0
  have h0 : ¬t.val % 32 = 0 := by omega
  have hs : k0_pay3 (F := Ideal) (iblk m c 0 t) (iblk m c 1 t)
        (outsAt0 m c (t.val - 1) (Nat.lt_of_le_of_lt (Nat.sub_le _ _) t.isLt)).2 (ix2 (0 : Fin 1) l)
      = ∑ k ∈ Finset.range (t.val % 32 + 1), tileSumN m c (t.val / 32) k := by
    rw [← scratch_eq m c l t.val t.isLt, outsAt0_C m c t h0 h31]
    dsimp only
    exact (congrFun (Pieces.sout_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h31) (iblk m c 0 t) (iblk m c 1 t)
      (outsAt0 m c (t.val - 1) (Nat.lt_of_le_of_lt (Nat.sub_le _ _) t.isLt)).2) (ix2 (0 : Fin 1) l)).symm
  rw [outsAt0_C m c t h0 h31]
  dsimp only
  refine (congrFun (Pieces.out_C (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h31) (iblk m c 0 t) (iblk m c 1 t)
    (outsAt0 m c (t.val - 1) (Nat.lt_of_le_of_lt (Nat.sub_le _ _) t.isLt)).2) (ix3 (0 : Fin 1) (0 : Fin 1) l)).trans ?_
  refine (Tile.pay1_apply _ l).trans ?_
  rw [hs, h31, tiles_sum m c (t.val / 32) (by have := t.isLt; omega)]
  rfl

/-- What the output array is to hold: at (b, 0, l), the mean of batch `b`. -/
def meanArr (c : Dev nD) : FVec Ideal S4x1x128 .f32 := fun i => batchMean m c ⟨(i 0).val, (i 0).isLt⟩

/-- An index of a [1, 1, 128] block is (0, 0, its lane). -/
theorem idx_lane (y : S1x1x128.Idx) : y = ix3 (0 : Fin 1) (0 : Fin 1) (y 2) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

/-- What a writing point writes back is its block of that array: the points that write back are the last tiles of
    the batches, and the block of point 32·b + 31 is row `b`. -/
theorem flushed_eq (c : Dev nD) (t : Fin cfg0.N) (hf : (cfg0.win 2).flush t = true) :
    (dats m 0 c).flushed 2 t = ((cfg0.win 2).blk t).view.read (Elt Ideal) (meanArr m c) := by
  have h31 : t.val % 32 = 31 := (flush0_2 t).mp hf
  show (cfg0.win 2).cut (grid0.coords t) ((dats m 0 c).after 2 t) = _
  rw [after0_2]
  funext y
  rw [View.read_apply]
  show ((outsAt0 m c t.val t.isLt).1 : Vec Ideal S1x1x128 .f32) y = meanArr m c (((cfg0.win 2).blk t).view.emb y)
  refine (congrArg _ (idx_lane y)).trans ((out_last m c t h31 (y 2)).trans ?_)
  unfold meanArr
  refine congrArg (batchMean m c) (Fin.ext ?_)
  obtain ⟨-, -, -, -, -, -, e0, -⟩ := idx_facts t
  have hy : (y 0).val < 1 := (y 0).isLt
  show t.val / 32 = win0_2.index t (0 : Fin 3) * 1 + 1 * (y 0).val
  omega

/-- An index of the output array is in point `t`'s block iff each coordinate is in the block's range on its axis. -/
theorem mem_blk (t : Fin cfg0.N) (i : S4x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v2).slice (win0_2.rect t)).set ↔ _
  rw [View.set_slice_whole, Rect.mem_set_unit]
  exact Iff.rfl

/-- Every index (b, 0, l) of the output array is in the block written back at the last tile of batch `b`. -/
theorem cover (i : S4x1x128.Idx) : ∃ t : Fin cfg0.N, (cfg0.win 2).flush t = true ∧ i ∈ ((cfg0.win 2).blk t).view.set := by
  have hN : cfg0.N = 128 := N_0
  have hi0 : (i 0).val < 4 := (i 0).isLt
  have hi1 : (i 1).val < 1 := (i 1).isLt
  have hi2 : (i 2).val < 128 := (i 2).isLt
  have ht : 32 * (i 0).val + 31 < cfg0.N := by omega
  refine ⟨⟨32 * (i 0).val + 31, ht⟩, (flush0_2 _).mpr (by dsimp only; omega), ?_⟩
  rw [mem_blk]
  obtain ⟨-, -, -, -, -, -, e0, e1, e2⟩ := idx_facts ⟨32 * (i 0).val + 31, ht⟩
  dsimp only at e0 e1 e2
  intro a
  match a with
  | ⟨0, _⟩ =>
    show win0_2.index ⟨32 * (i 0).val + 31, ht⟩ (0 : Fin 3) * 1 ≤ (i 0).val ∧ (i 0).val < win0_2.index ⟨32 * (i 0).val + 31, ht⟩ (0 : Fin 3) * 1 + 1
    omega
  | ⟨1, _⟩ =>
    show win0_2.index ⟨32 * (i 0).val + 31, ht⟩ (1 : Fin 3) * 1 ≤ (i 1).val ∧ (i 1).val < win0_2.index ⟨32 * (i 0).val + 31, ht⟩ (1 : Fin 3) * 1 + 1
    omega
  | ⟨2, _⟩ =>
    show win0_2.index ⟨32 * (i 0).val + 31, ht⟩ (2 : Fin 3) * 128 ≤ (i 2).val ∧ (i 2).val < win0_2.index ⟨32 * (i 0).val + 31, ht⟩ (2 : Fin 3) * 128 + 128
    omega

/-- So the output array ends holding the batch means, one row of 128 equal lanes per batch. -/
theorem final (c : Dev nD) : (dats m 0 c).arrAt 2 cfg0.N = meanArr m c :=
  (dats m 0 c).arrAt_eq_of_cover 2 (meanArr m c) (flushed_eq m c) cover

/-- The result: at `b`, the mean of batch `b`. -/
def result (c : Dev nD) : Buf (Elt Ideal) ((c : Thread nD τ).loc main_v4) := fun i => batchMean m c ⟨(i 0).val, (i 0).isLt⟩

/-- The host tail keeps lane 0 of each row: the slice [0:4, 0:1, 0:1] of any [4, 1, 128] array, reshaped to [4],
    reads at `b` the array at (b, 0, 0). -/
theorem tail_read (A : FVec Ideal S4x1x128 .f32) (i : S4.Idx) :
    shapeCast S4 (extractStridedSlice S4x1x1 ![0, 0, 0] A slices_S4x1x128_S4x1x1_0_0_0) shapeCasts_S4x1x1_S4 i
      = A (ix3 (⟨(i 0).val, (i 0).isLt⟩ : Fin 4) (0 : Fin 1) (0 : Fin 128)) := by
  refine (shapeCast_apply _ shapeCasts_S4x1x1_S4 i (ix3 (⟨(i 0).val, (i 0).isLt⟩ : Fin 4) (0 : Fin 1) (0 : Fin 1)) ?_).trans ?_
  · rw [Shape.rowMajor_val_three, Shape.rowMajor_val_one]
    show ((i 0).val * 1 + 0) * 1 + 0 = (i 0).val
    omega
  refine extractStridedSlice_apply ![0, 0, 0] A slices_S4x1x128_S4x1x1_0_0_0
    (ix3 (⟨(i 0).val, (i 0).isLt⟩ : Fin 4) (0 : Fin 1) (0 : Fin 1)) (ix3 (⟨(i 0).val, (i 0).isLt⟩ : Fin 4) (0 : Fin 1) (0 : Fin 128)) ?_
  intro a
  match a with
  | ⟨0, _⟩ => show (i 0).val = 0 + (i 0).val; omega
  | ⟨1, _⟩ => rfl
  | ⟨2, _⟩ => rfl

/-- The result as the tail computes it from the output array the region leaves. -/
theorem tail_term (c : Dev nD) : Pipeline.afterTail₀ cfgs (dats m) 0 (V0 m) [hostOps1] c main_v4
    = shapeCast S4 (extractStridedSlice S4x1x1 ![0, 0, 0]
        (Pipeline.withArrays spec0 c (V0 m c) (fun w => (dats m 0 c).arrAt w cfg0.N) (Proc.devRef .tc main_v2))
        slices_S4x1x128_S4x1x1_0_0_0) shapeCasts_S4x1x1_S4 := by
  unfold Pipeline.afterTail₀
  show StableHlo.after hostOps1 _ (Proc.devRef .tc main_v4) = _
  after_results
  rfl

theorem tail_eq (c : Dev nD) : Pipeline.afterTail₀ cfgs (dats m) 0 (V0 m) [hostOps1] c main_v4 = result m c := by
  rw [tail_term]
  funext i
  refine (tail_read _ i).trans ?_
  exact congrFun ((Pipeline.withArrays_arr spec0 launch0.win.arr_inj c (V0 m c) (fun w => (dats m 0 c).arrAt w cfg0.N) 2).trans (final m c)) _

/-- The kernel's run, read: every weakly fair execution ends with the result at the batch means and the two
    argument arrays as launched. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.Chamfer.Run
end
-- ==== Proof.lean ====
/-
  The certificate: a kernel that computes, per batch, the mean over 16384 source points of the squared distance to
  the nearest of 4096 target vertices (the distance expanded as |p|² + |v|² − 2·⟨p, v⟩ and clamped at zero), tile by
  tile with a running total in a scratch row, against the same formula written as whole-array operations.

  Frames: the kernel's two frames are the generated ones; the reference's is its generated run with the result
  forgotten. The idealization rewrote no operation. The value claim: over the extended reals the kernel's result at
  batch b (read off its run: the 32 tile sums accumulated in the scratch, divided once at the last tile) and the
  reference's (its last stage read at b) are both the mean nearest-vertex squared distance of the batch; the two
  differ only in how the sum over the points is grouped, and addition of extended reals is commutative and
  associative, so the precondition is never opened.
-/
import proofs.«117292_j46136538694019_1_alg».proof.Defs
import proofs.«117292_j46136538694019_1_alg».proof.Proof.Gen.Kernel
import proofs.«117292_j46136538694019_1_alg».proof.Proof.Gen.Kernel.Skeleton
import proofs.«117292_j46136538694019_1_alg».proof.Proof.Gen.Kernel.Launch
import proofs.«117292_j46136538694019_1_alg».proof.Proof.Gen.Kernel.Points
import proofs.«117292_j46136538694019_1_alg».proof.Proof.Gen.Kernel.Frame
import proofs.«117292_j46136538694019_1_alg».proof.Proof.Gen.KernelIdeal
import proofs.«117292_j46136538694019_1_alg».proof.Proof.Gen.KernelIdeal.Skeleton
import proofs.«117292_j46136538694019_1_alg».proof.Proof.Gen.KernelIdeal.Launch
import proofs.«117292_j46136538694019_1_alg».proof.Proof.Gen.KernelIdeal.Points
import proofs.«117292_j46136538694019_1_alg».proof.Proof.Gen.KernelIdeal.Frame
import proofs.«117292_j46136538694019_1_alg».proof.Proof.Gen.ReferenceIdeal
import proofs.«117292_j46136538694019_1_alg».proof.Proof.Gen.Pre_finite_inputs
import proofs.«117292_j46136538694019_1_alg».proof.Proof.Gen.ReferenceIdeal.Run
import proofs.«117292_j46136538694019_1_alg».proof.Proof.Gen.ReferenceIdeal.Read
import proofs.«117292_j46136538694019_1_alg».proof.Proof.RefIsMean
import proofs.«117292_j46136538694019_1_alg».proof.Proof.TileRun
import Idealize.ShloMosaic.Adequacy
import Idealize.ShloMosaic.Init

noncomputable section

/-! ## The claims -/

namespace Cert.Proof.Claims

open Idealize.ShloMosaic Idealize.SL.Sem

/-- The kernel as printed runs, faults nowhere and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals both programs end with, at batch `b`, the mean over the batch's 16384 points of the
    squared distance to the nearest of its 4096 vertices: the kernel by its 32 tile sums, the reference by one sum. -/
theorem algebraic : Cert.algebraic_KernelIdeal_ReferenceIdeal := by
  intro m ρ m' ρ' _ hagree
  refine ⟨fun c => Cert.Chamfer.Run.result m c, Cert.Chamfer.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2]
  funext i
  refine (congrArg _ (ValueIdx.eq_ix1 i)).trans ((Cert.Chamfer.Ref.ref_eq _ _ (i 0)).trans ?_)
  rfl

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
